-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x128 : Shape := ⟨2, ![4096, 128]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8x2048x4096 .f32) (main_arg1 : FVec F S4096x128 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S8x2048x4096 : Shape := ⟨3, ![8, 2048, 4096]⟩
abbrev S4096x128 : Shape := ⟨2, ![4096, 128]⟩
abbrev S16384x4096 : Shape := ⟨2, ![16384, 4096]⟩
abbrev S16384x128 : Shape := ⟨2, ![16384, 128]⟩
abbrev S2048x1024 : Shape := ⟨2, ![2048, 1024]⟩
abbrev S1024x128 : Shape := ⟨2, ![1024, 128]⟩
abbrev S2048x128 : Shape := ⟨2, ![2048, 128]⟩
abbrev S8x2048x128 : Shape := ⟨3, ![8, 2048, 128]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S4096x128, .f32⟩
  | .hbm, ⟨2, _⟩ => ⟨S16384x4096, .f32⟩
  | .hbm, ⟨3, _⟩ => ⟨S16384x128, .f32⟩
  | .hbm, ⟨4, _⟩ => ⟨S8x2048x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x2048x4096_S16384x4096 : S8x2048x4096.ShapeCasts S16384x4096
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S16384x128_S8x2048x128 : S16384x128.ShapeCasts S8x2048x128
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .f32 = 32 ∨ (Rect.block (s := S16384x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x128 : Shape := ⟨2, ![4096, 128]⟩
abbrev S8x2048x128 : Shape := ⟨3, ![8, 2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x128, .f32⟩
  | .hbm, ⟨2, _⟩ => ⟨S8x2048x128, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x4096_S4096x128_S8x2048x128_2_0_01_1_n_n_wf : DotDims.WF S8x2048x4096 S4096x128 S8x2048x128 [2] [0] [0, 1] [1] [] []

variable [Facts₀]

def dot_S8x2048x4096_S4096x128_S8x2048x128_2_0_01_1_n_n : DotDims S8x2048x4096 S4096x128 S8x2048x128 where
  lhsContracting := [2]
  rhsContracting := [0]
  lhsNonContracting := [0, 1]
  rhsNonContracting := [1]
  lhsBatch := []
  rhsBatch := []
  wf := dot_S8x2048x4096_S4096x128_S8x2048x128_2_0_01_1_n_n_wf

class Facts : Prop extends Facts₀ where

variable [Facts]
-- ==== Proof.Pieces.lean ====
/-
  What one grid point of the idealized kernel leaves behind, as values.

  The body keeps a [2048, 128] accumulator in a scratch buffer. At a point it (first reduction step only) clears
  the accumulator, then adds to it the product of the point's [2048, 1024] block of the left operand with the
  point's [1024, 128] block of the right operand, and (last reduction step only) copies the accumulator to the
  output block. So, writing `step x w a` for "a plus the product of x and w" (the body's one arithmetic payload):
  a first step leaves `step x w 0` in the accumulator, every other step `step x w a` of what the step before
  left, and a last step leaves that same value in the output block.
-/
import proofs.«142127_j67954972557888_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- An intermediate step: the accumulator holding `a` ends holding `a` plus the product of the two blocks. -/
theorem scratch_B (c : Dev nD) (i : grid0.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (a5 : Memref sig .tc .vmem S2048x128 .f32) (h5 : a5.IsWhole) (hc0 : ¬cond0_0 i) (hc1 : ¬cond0_1 i)
    (x : Vec F S2048x1024 .f32) (w : Vec F S1024x128 .f32) (a : Vec F S2048x128 .f32) :
    sout0_B_0 c i a2 h2 a3 h3 a4 h4 a5 h5 hc0 hc1 x w a = k0_pay2 x w a := by
  unfold sout0_B_0
  rw [View.read_writes_eq_canon _ _ _ (scover0_B_0 c i a2 h2 a3 h3 a4 h4 a5 h5 hc0 hc1 x w a)]
  unfold kernelRun0_B
  dsimp only
  sl_unfold_words
  rw [View.canon_unit_zero hz]
  simp only [View.readAt_eq_ld, h2.read_unread, h3.read_unread, h5.read_unread, View.ld_unit_zero (S := S2048x1024) hz,
    View.ld_unit_zero (S := S1024x128) hz, View.ld_unit_zero (S := S2048x128) hz]

/-- A last step: the accumulator ends as after an intermediate step, -/
theorem scratch_C (c : Dev nD) (i : grid0.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (a5 : Memref sig .tc .vmem S2048x128 .f32) (h5 : a5.IsWhole) (hc0 : ¬cond0_0 i) (hc1 : cond0_1 i)
    (x : Vec F S2048x1024 .f32) (w : Vec F S1024x128 .f32) (a : Vec F S2048x128 .f32) :
    sout0_C_0 c i a2 h2 a3 h3 a4 h4 a5 h5 hc0 hc1 x w a = k0_pay2 x w a := by
  unfold sout0_C_0
  rw [View.read_writes_eq_canon _ _ _ (scover0_C_0 c i a2 h2 a3 h3 a4 h4 a5 h5 hc0 hc1 x w a)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S1024x128) hz, View.ld_unit_zero (S := S2048x128) hz, View.readCov_unit_zero (S := S2048x128) _ hz]

/-- and the output block holds the same value, copied from the accumulator. -/
theorem out_C (c : Dev nD) (i : grid0.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (a5 : Memref sig .tc .vmem S2048x128 .f32) (h5 : a5.IsWhole) (hc0 : ¬cond0_0 i) (hc1 : cond0_1 i)
    (x : Vec F S2048x1024 .f32) (w : Vec F S1024x128 .f32) (a : Vec F S2048x128 .f32) :
    out0_C_2 c i a2 h2 a3 h3 a4 h4 a5 h5 hc0 hc1 x w a = k0_pay2 x w a := by
  unfold out0_C_2
  rw [View.read_writes_eq_canon _ _ _ (cover0_C_2 c i a2 h2 a3 h3 a4 h4 a5 h5 hc0 hc1 x w a)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S1024x128) hz, View.ld_unit_zero (S := S2048x128) hz, View.readCov_unit_zero (S := S2048x128) _ hz]

/-- A first step: the accumulator is cleared, then takes the product of the two blocks. -/
theorem scratch_A (c : Dev nD) (i : grid0.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (a5 : Memref sig .tc .vmem S2048x128 .f32) (h5 : a5.IsWhole) (hc0 : cond0_0 i) (hc1 : ¬cond0_1 i)
    (x : Vec F S2048x1024 .f32) (w : Vec F S1024x128 .f32) :
    sout0_A_0 c i a2 h2 a3 h3 a4 h4 a5 h5 hc0 hc1 x w = k0_pay2 x w (k0_pay1 (F := F)) := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S2048x128) hz]
  simp only [View.readAt_eq_ld, h2.read_unread, h3.read_unread, h5.read_unread, View.ld_unit_zero (S := S2048x1024) hz,
    View.ld_unit_zero (S := S1024x128) hz, View.ld_unit_zero (S := S2048x128) hz, View.readCov_unit_zero (S := S2048x128) _ hz]

end Cert.KernelIdeal.Acc

end
-- ==== Proof.Step.lean ====
/-
  One step of the accumulation, entry by entry, over the extended reals.

  The body's arithmetic payload takes the point's [2048, 1024] block `x` of the left operand, its [1024, 128] block
  `w` of the right operand and the accumulator `a`; both blocks are narrowed to bf16 (the identity on extended
  reals) and multiplied into a zero accumulator, and the product is added to `a`. At entry (p, q) that is
  `a p q + ∑ j, x p j * w j q` over the 1024 contraction indices of the block. The clearing payload is zero everywhere.
-/
import proofs.«142127_j67954972557888_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Idealize.ShloMosaic.ValueIdx

/-- The left operand's index of the block product: the output's row, -/
theorem lhs_row (i : S2048x128.Idx) (k : dot_S2048x1024_S1024x128_S2048x128_1_0_0_1_n_n.contr.Idx) :
    (dot_S2048x1024_S1024x128_S2048x128_1_0_0_1_n_n.lhsIdx i k 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- and the contraction index; -/
theorem lhs_contr (i : S2048x128.Idx) (k : dot_S2048x1024_S1024x128_S2048x128_1_0_0_1_n_n.contr.Idx) :
    (dot_S2048x1024_S1024x128_S2048x128_1_0_0_1_n_n.lhsIdx i k 1).val = (k ⟨0, by decide⟩).val :=
  dot_S2048x1024_S1024x128_S2048x128_1_0_0_1_n_n.lhsIdx_val_of_single rfl i k
/-- the right operand's: the contraction index, -/
theorem rhs_contr (i : S2048x128.Idx) (k : dot_S2048x1024_S1024x128_S2048x128_1_0_0_1_n_n.contr.Idx) :
    (dot_S2048x1024_S1024x128_S2048x128_1_0_0_1_n_n.rhsIdx i k 0).val = (k ⟨0, by decide⟩).val :=
  dot_S2048x1024_S1024x128_S2048x128_1_0_0_1_n_n.rhsIdx_val_of_single rfl i k
/-- and the output's column. -/
theorem rhs_col (i : S2048x128.Idx) (k : dot_S2048x1024_S1024x128_S2048x128_1_0_0_1_n_n.contr.Idx) :
    (dot_S2048x1024_S1024x128_S2048x128_1_0_0_1_n_n.rhsIdx i k 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The clearing payload is zero at every entry. -/
theorem clear_apply (y : S2048x128.Idx) : k0_pay1 (F := Ideal) y = 0 := by
  unfold k0_pay1
  simp only [shapeCast_self]
  show Ideal.ofBits .f32 0x00000000#32 = 0
  exact Ideal.ofBits_zero_f32

/-- The step payload at entry (p, q): the accumulator's entry plus the block's 1024 products. -/
theorem step_apply (x : Vec Ideal S2048x1024 .f32) (w : Vec Ideal S1024x128 .f32) (a : Vec Ideal S2048x128 .f32)
    (p : Fin 2048) (q : Fin 128) :
    k0_pay2 (F := Ideal) x w a (ix2 p q) = a (ix2 p q) + ∑ j : Fin 1024, x (ix2 p j) * w (ix2 j q) := by
  unfold k0_pay2
  simp only [shapeCast_self]
  rw [addf_apply]
  refine congrArg (a (ix2 p q) + ·) ((Ideal.matmul_constant_zero_apply dot_S2048x1024_S1024x128_S2048x128_1_0_0_1_n_n none _ _ (ix2 p q)).trans ?_)
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun d => Fin.ext (by
    match d with
    | ⟨0, _⟩ => exact lhs_row _ _
    | ⟨1, _⟩ => exact (lhs_contr _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun d => Fin.ext (by
    match d with
    | ⟨0, _⟩ => exact (rhs_contr _ _).trans hk
    | ⟨1, _⟩ => exact rhs_col _ _)
  rw [el, er, truncf_apply, truncf_apply]

end Cert.KernelIdeal.Acc

end
-- ==== Proof.BlockSum.lean ====
/-
  The arithmetic of a contraction cut into four consecutive blocks of 1024, over the extended reals.

  Row `r` of a [16384, 4096] array `X` against column `q` of a [4096, 128] array `W`: the products
  `X r j * W j q` are listed along `j` (`term`, zero past the contraction length so that it is a function on ℕ),
  their sum over the first `n` indices is `partialDot … n`. Adding the next block of 1024 products to the sum over
  the first `1024 k` gives the sum over the first `1024 (k + 1)` (`partialDot_block`), the sum over no index is
  zero, and the sum over all 4096 is the plain dot product (`partialDot_full`). Only the commutative-monoid
  structure of `+` on the extended reals is used: no entry needs to be finite. Last, the function both programs
  are shown to compute (`contraction`).
-/
import Idealize.ShloMosaic.PureOps.Ideal
import Idealize.ShloMosaic.Lib.ValueIdx

noncomputable section

namespace Cert.BlockSum

open Idealize.ShloMosaic Idealize.ShloMosaic.ValueIdx

/-- The left operand as a matrix, the right operand, as index functions into the extended reals. -/
abbrev Lhs : Type := (⟨2, ![16384, 4096]⟩ : Shape).Idx → EReal
abbrev Rhs : Type := (⟨2, ![4096, 128]⟩ : Shape).Idx → EReal

/-- The `j`-th product of row `r` of `X` with column `q` of `W`; zero past the contraction length. -/
def term (X : Lhs) (W : Rhs) (r : Fin 16384) (q : Fin 128) (j : ℕ) : EReal :=
  if h : j < 4096 then X (ix2 r ⟨j, h⟩) * W (ix2 ⟨j, h⟩ q) else 0

theorem term_of_lt (X : Lhs) (W : Rhs) (r : Fin 16384) (q : Fin 128) (j : ℕ) (h : j < 4096) :
    term X W r q j = X (ix2 r ⟨j, h⟩) * W (ix2 ⟨j, h⟩ q) := dif_pos h

/-- The dot product of row `r` with column `q` over the first `n` contraction indices. -/
def partialDot (X : Lhs) (W : Rhs) (r : Fin 16384) (q : Fin 128) (n : ℕ) : EReal :=
  ∑ j ∈ Finset.range n, term X W r q j

theorem partialDot_zero (X : Lhs) (W : Rhs) (r : Fin 16384) (q : Fin 128) : partialDot X W r q 0 = 0 :=
  Finset.sum_range_zero _

/-- One more block: the first `1024 (k + 1)` products are the first `1024 k` and then the 1024 of block `k`. -/
theorem partialDot_block (X : Lhs) (W : Rhs) (r : Fin 16384) (q : Fin 128) (k : ℕ) :
    partialDot X W r q (1024 * (k + 1))
      = partialDot X W r q (1024 * k) + ∑ j : Fin 1024, term X W r q (1024 * k + j.val) := by
  unfold partialDot
  rw [show 1024 * (k + 1) = 1024 * k + 1024 from by ring, Finset.sum_range_add]
  exact congrArg _ (Finset.sum_range fun x => term X W r q (1024 * k + x))

/-- All four blocks: the plain dot product of the row with the column. -/
theorem partialDot_full (X : Lhs) (W : Rhs) (r : Fin 16384) (q : Fin 128) :
    partialDot X W r q 4096 = ∑ j : Fin 4096, X (ix2 r j) * W (ix2 j q) := by
  unfold partialDot
  rw [Finset.sum_range]
  exact Finset.sum_congr rfl fun j _ => term_of_lt X W r q j.val j.isLt

/-- The contraction of a [8, 2048, 4096] array's last axis with a [4096, 128] matrix's first, entry by entry:
    what both programs compute. -/
def contraction (x : (⟨3, ![8, 2048, 4096]⟩ : Shape).Idx → EReal) (w : Rhs) : (⟨3, ![8, 2048, 128]⟩ : Shape).Idx → EReal :=
  fun i => ∑ j : Fin 4096, x (ix3 (i 0) (i 1) j) * w (ix2 j (i 2))

end Cert.BlockSum

end
-- ==== Proof.Invariant.lean ====
/-
  The accumulator after every grid point, and what the last reduction step hands to the output.

  The grid is 8 row tiles by 4 reduction steps, the reduction step varying fastest: point `n` is row tile `n / 4`,
  step `n % 4`. Its left block is rows `2048 (n / 4) …` and columns `1024 (n % 4) …` of the [16384, 4096] left
  operand, its right block rows `1024 (n % 4) …` of the [4096, 128] right operand. By induction on the point, entry
  (p, q) of the accumulator after point `n` is the dot product of row `2048 (n / 4) + p` with column `q` over the
  first `1024 (n % 4 + 1)` contraction indices: a first step starts from zero, every other step adds its block's 1024
  products to what the step before left. After a last step (`n % 4 = 3`) that is the whole dot product over 4096,
  and the output block holds the same values.
-/
import proofs.«142127_j67954972557888_1_alg».proof.Proof.Pieces
import proofs.«142127_j67954972557888_1_alg».proof.Proof.Step
import proofs.«142127_j67954972557888_1_alg».proof.Proof.BlockSum

noncomputable section

open Idealize.ShloMosaic Idealize.ShloMosaic.TcCoe Idealize.SL.Sem

namespace Cert.KernelIdeal.Acc

open Cert.KernelIdeal Cert.KernelIdeal.Gen Idealize.ShloMosaic.ValueIdx Cert.BlockSum

variable (m : (ℓ : Loc nD τ sig) → Buf (Elt Ideal) ℓ)

/-- The two operands as the region finds them, and a point's blocks of them. -/
abbrev xarr (c : Dev nD) : Vec Ideal S16384x4096 .f32 := V m c main_v0
abbrev warr (c : Dev nD) : Vec Ideal S4096x128 .f32 := V m c main_arg1
abbrev xblk (c : Dev nD) (t : Fin cfg0.N) : Vec Ideal S2048x1024 .f32 := iblk m c 0 t
abbrev wblk (c : Dev nD) (t : Fin cfg0.N) : Vec Ideal S1024x128 .f32 := iblk m c 1 t

/-- Where each window's block sits at point `t`: the row tile is `t / 4`, the reduction step `t % 4`. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry (p, j) of the left block at point `t` is entry (2048 (t / 4) + p, 1024 (t % 4) + j) of the left operand. -/
theorem xblk_apply (c : Dev nD) (t : Fin cfg0.N) (p : Fin 2048) (j : Fin 1024) (r : Fin 16384) (k : Fin 4096)
    (hr : r.val = 2048 * (t.val / 4) + p.val) (hk : k.val = 1024 * (t.val % 4) + j.val) :
    xblk m c t (ix2 p j) = xarr m c (ix2 r k) := by
  obtain ⟨e0, e1, -⟩ := idx_facts t
  show iblk m c 0 t (ix2 p j) = _
  unfold iblk
  rw [View.read_apply]
  show V m c main_v0 _ = V m c main_v0 _
  congr 1
  funext a
  apply Fin.ext
  match a with
  | ⟨0, _⟩ => show win0_0.index t (0 : Fin 2) * 2048 + 1 * p.val = r.val; omega
  | ⟨1, _⟩ => show win0_0.index t (1 : Fin 2) * 1024 + 1 * j.val = k.val; omega

/-- Entry (j, q) of the right block at point `t` is entry (1024 (t % 4) + j, q) of the right operand. -/
theorem wblk_apply (c : Dev nD) (t : Fin cfg0.N) (j : Fin 1024) (q : Fin 128) (k : Fin 4096)
    (hk : k.val = 1024 * (t.val % 4) + j.val) :
    wblk m c t (ix2 j q) = warr m c (ix2 k q) := by
  obtain ⟨-, -, e2, e3, -⟩ := idx_facts t
  show iblk m c 1 t (ix2 j q) = _
  unfold iblk
  rw [View.read_apply]
  show V m c main_arg1 _ = V m c main_arg1 _
  congr 1
  funext a
  apply Fin.ext
  match a with
  | ⟨0, _⟩ => show win0_1.index t (0 : Fin 2) * 1024 + 1 * j.val = k.val; omega
  | ⟨1, _⟩ => show win0_1.index t (1 : Fin 2) * 128 + 1 * q.val = q.val; omega

/-- The row of the left operand that entry row `p` of point `n`'s tile is. -/
def row (n : ℕ) (h : n < cfg0.N) (p : Fin 2048) : Fin 16384 :=
  ⟨2048 * (n / 4) + p.val, by have hN : n < 32 := lt_of_lt_of_eq h N_0; have := p.isLt; omega⟩

/-- The step before (same row tile) has the same rows. -/
theorem row_pred (n : ℕ) (h : n < cfg0.N) (h' : n - 1 < cfg0.N) (hn : ¬n % 4 = 0) (p : Fin 2048) :
    row (n - 1) h' p = row n h p := Fin.ext (by show 2048 * ((n - 1) / 4) + p.val = 2048 * (n / 4) + p.val; omega)

/-- The products of a point's two blocks along the contraction are products number `1024 (n % 4) …` of the row with
    the column. -/
theorem block_products (c : Dev nD) (n : ℕ) (h : n < cfg0.N) (p : Fin 2048) (q : Fin 128) :
    ∑ j : Fin 1024, xblk m c ⟨n, h⟩ (ix2 p j) * wblk m c ⟨n, h⟩ (ix2 j q)
      = ∑ j : Fin 1024, term (xarr m c) (warr m c) (row n h p) q (1024 * (n % 4) + j.val) := by
  have hN : n < 32 := lt_of_lt_of_eq h N_0
  refine Finset.sum_congr rfl fun j _ => ?_
  have hk : 1024 * (n % 4) + j.val < 4096 := by have := j.isLt; omega
  rw [term_of_lt _ _ _ _ _ hk, xblk_apply m c ⟨n, h⟩ p j (row n h p) ⟨_, hk⟩ rfl rfl, wblk_apply m c ⟨n, h⟩ j q ⟨_, hk⟩ rfl]

/-- THE ACCUMULATOR after point `n`: the dot products over the first `1024 (n % 4 + 1)` contraction indices. -/
theorem acc_eq (c : Dev nD) (n : ℕ) : ∀ (h : n < cfg0.N) (p : Fin 2048) (q : Fin 128),
    (outsAt0 m c n h).2 (ix2 p q) = partialDot (xarr m c) (warr m c) (row n h p) q (1024 * (n % 4 + 1)) := by
  induction n using Nat.strong_induction_on with
  | _ n ih =>
    intro h p q
    have hN : n < 32 := lt_of_lt_of_eq h N_0
    rw [partialDot_block]
    by_cases h0 : n % 4 = 0
    · have h1 : ¬n % 4 = 3 := by omega
      rw [outsAt0_A m c ⟨n, h⟩ h0 h1]
      dsimp only
      refine (congrFun (scratch_A (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) ((hcond0_0 ⟨n, h⟩).mpr h0) (fun hh => h1 ((hcond0_1 ⟨n, h⟩).mp hh))
        (xblk m c ⟨n, h⟩) (wblk m c ⟨n, h⟩)) (ix2 p q)).trans ?_
      rw [step_apply, clear_apply, block_products m c n h p q, h0, Nat.mul_zero, partialDot_zero]
    · have hlt : n - 1 < n := by omega
      have h' : n - 1 < cfg0.N := lt_trans hlt h
      have e : 1024 * ((n - 1) % 4 + 1) = 1024 * (n % 4) := by omega
      by_cases h1 : n % 4 = 3
      · rw [outsAt0_C m c ⟨n, h⟩ h0 h1]
        dsimp only
        refine (congrFun (scratch_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) ((hcond0_1 ⟨n, h⟩).mpr h1)
          (xblk m c ⟨n, h⟩) (wblk m c ⟨n, h⟩) (outsAt0 m c (n - 1) h').2) (ix2 p q)).trans ?_
        rw [step_apply, block_products m c n h p q, ih (n - 1) hlt h' p q, row_pred n h h' h0 p, e]
      · rw [outsAt0_B m c ⟨n, h⟩ h0 h1]
        dsimp only
        refine (congrFun (scratch_B (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) (fun hh => h1 ((hcond0_1 ⟨n, h⟩).mp hh))
          (xblk m c ⟨n, h⟩) (wblk m c ⟨n, h⟩) (outsAt0 m c (n - 1) h').2) (ix2 p q)).trans ?_
        rw [step_apply, block_products m c n h p q, ih (n - 1) hlt h' p q, row_pred n h h' h0 p, e]

/-- At a last step the output block is the accumulator. -/
theorem out_eq_acc (c : Dev nD) (n : ℕ) (h : n < cfg0.N) (h1 : n % 4 = 3) :
    (outsAt0 m c n h).1 = (outsAt0 m c n h).2 := by
  have h0 : ¬n % 4 = 0 := by omega
  have h' : n - 1 < cfg0.N := lt_of_le_of_lt (Nat.sub_le _ _) h
  rw [outsAt0_C m c ⟨n, h⟩ h0 h1]
  dsimp only
  exact (out_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) ((hcond0_1 ⟨n, h⟩).mpr h1)
          (xblk m c ⟨n, h⟩) (wblk m c ⟨n, h⟩) (outsAt0 m c (n - 1) h').2).trans
    (scratch_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh)) ((hcond0_1 ⟨n, h⟩).mpr h1)
          (xblk m c ⟨n, h⟩) (wblk m c ⟨n, h⟩) (outsAt0 m c (n - 1) h').2).symm

/-- THE OUTPUT BLOCK after a last step: the whole dot product of each of the tile's rows with each column. -/
theorem out_apply (c : Dev nD) (n : ℕ) (h : n < cfg0.N) (h1 : n % 4 = 3) (p : Fin 2048) (q : Fin 128) :
    (outsAt0 m c n h).1 (ix2 p q) = ∑ j : Fin 4096, xarr m c (ix2 (row n h p) j) * warr m c (ix2 j q) := by
  rw [out_eq_acc m c n h h1, acc_eq m c n h p q, h1]
  exact partialDot_full _ _ _ _

end Cert.KernelIdeal.Acc

end
-- ==== Proof.Result.lean ====
/-
  The idealized kernel's result array.

  Point `t` writes its output block back exactly when it is a last reduction step (`t % 4 = 3`); the block is row
  tile `t / 4` of the [16384, 128] product, and the eight tiles cover it. So the pallas_call's result is the plain
  matrix product `prod X W` of the operands as the region finds them.
-/
import proofs.«142127_j67954972557888_1_alg».proof.Proof.Invariant
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.BlockSum

variable (m : (ℓ : Loc nD τ sig) → Buf (Elt Ideal) ℓ) (ρ : Dev nD → PrngReg)

/-- The [16384, 128] product of a [16384, 4096] matrix with a [4096, 128] matrix, entry by entry. -/
def prod (X : Vec Ideal S16384x4096 .f32) (W : Vec Ideal S4096x128 .f32) : Vec Ideal S16384x128 .f32 :=
  fun i => ∑ j : Fin 4096, X (ix2 (i 0) j) * W (ix2 j (i 1))

/-- The product at an index whose coordinates are known. -/
theorem prod_apply (X : Vec Ideal S16384x4096 .f32) (W : Vec Ideal S4096x128 .f32) (i : S16384x128.Idx)
    (r : Fin 16384) (q : Fin 128) (h0 : i 0 = r) (h1 : i 1 = q) :
    prod X W i = ∑ j : Fin 4096, X (ix2 r j) * W (ix2 j q) := by
  subst h0 h1; rfl

/-- WHAT A LAST REDUCTION STEP WRITES BACK is its row tile of the product. -/
theorem flushed_eq (c : Dev nD) (t : Fin cfg0.N) (hf : (cfg0.win 2).flush t = true) :
    (dats m 0 c).flushed 2 t = ((cfg0.win 2).blk t).view.read (Elt Ideal) (prod (xarr m c) (warr m c)) := by
  have h3 : t.val % 4 = 3 := (flush0_2 t).mp hf
  obtain ⟨-, -, -, -, e4, e5⟩ := idx_facts t
  show (cfg0.win 2).cut (grid0.coords t) ((dats m 0 c).after 2 t) = _
  rw [after0_2]
  funext y
  obtain ⟨p, q, rfl⟩ : ∃ (p : Fin 2048) (q : Fin 128), y = ix2 p q := ⟨y 0, y 1, eq_ix2 y⟩
  rw [View.read_apply]
  show (outsAt0 m c t.val t.isLt).1 (ix2 p q) = prod (xarr m c) (warr m c) (((cfg0.win 2).blk t).view.emb (ix2 p q))
  have r0 : ((cfg0.win 2).blk t).view.emb (ix2 p q) 0 = row t.val t.isLt p :=
    Fin.ext (by show win0_2.index t (0 : Fin 2) * 2048 + 1 * p.val = 2048 * (t.val / 4) + p.val; omega)
  have r1 : ((cfg0.win 2).blk t).view.emb (ix2 p q) 1 = q :=
    Fin.ext (by show win0_2.index t (1 : Fin 2) * 128 + 1 * q.val = q.val; omega)
  exact (out_apply m c t.val t.isLt h3 p q).trans (prod_apply _ _ _ _ _ r0 r1).symm

/-- An index of the product is in point `t`'s block iff each coordinate is in the block's range on its axis. -/
theorem mem_blk (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- The last reduction step of the row tile that holds row `r`. -/
def lastStep (r : ℕ) (hr : r < 16384) : Fin cfg0.N := ⟨4 * (r / 2048) + 3, lt_of_lt_of_eq (by omega) N_0.symm⟩

/-- Row `r` of the product is written back by the last reduction step of row tile `r / 2048`. -/
theorem covered (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  refine ⟨lastStep (i 0).val hi0, (flush0_2 _).mpr (by show (4 * ((i 0).val / 2048) + 3) % 4 = 3; omega), ?_⟩
  rw [mem_blk]
  obtain ⟨-, -, -, -, e4, e5⟩ := idx_facts (lastStep (i 0).val hi0)
  have e4' : win0_2.index (lastStep (i 0).val hi0) (0 : Fin 2) = (4 * ((i 0).val / 2048) + 3) / 4 := e4
  intro a
  match a with
  | ⟨0, _⟩ => show win0_2.index _ (0 : Fin 2) * 2048 ≤ (i 0).val ∧ (i 0).val < win0_2.index _ (0 : Fin 2) * 2048 + 2048; omega
  | ⟨1, _⟩ => show win0_2.index _ (1 : Fin 2) * 128 ≤ (i 1).val ∧ (i 1).val < win0_2.index _ (1 : Fin 2) * 128 + 128; omega

/-- THE PALLAS_CALL'S RESULT after the run: the product of the operands as the region finds them. -/
theorem product (c : Dev nD) : (dats m 0 c).arrAt 2 cfg0.N = prod (xarr m c) (warr m c) :=
  (dats m 0 c).arrAt_eq_of_cover 2 (prod (xarr m c) (warr m c)) (flushed_eq m c) covered

end Cert.KernelIdeal.Acc

end
-- ==== Proof.KernelRun.lean ====
/-
  The idealized kernel's run, read: @main ends with its result at the contraction of `x`'s last axis with `pe`'s
  first, the arguments unchanged.

  Before the region @main flattens `x` [8, 2048, 4096] to the [16384, 4096] left operand: row `2048 b + s` of the
  operand is row (b, s) of `x`. The region computes the matrix product (Result.lean). After it @main unflattens
  the product's rows: entry (b, s, d) of the result is entry (2048 b + s, d) of the product. Both reshapes keep the
  row-major position, so entry (b, s, d) is `∑ j, x b s j * pe j d`.
-/
import proofs.«142127_j67954972557888_1_alg».proof.Proof.Result

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.BlockSum

variable (m : (ℓ : Loc nD τ sig) → Buf (Elt Ideal) ℓ) (ρ : Dev nD → PrngReg)

/-- The left operand as the region finds it is `x` with its two leading axes flattened. -/
theorem xarr_eq (c : Dev nD) :
    xarr m c = shapeCast S16384x4096 (m ((c : Thread nD τ).loc main_arg0)) shapeCasts_S8x2048x4096_S16384x4096 := by
  show StableHlo.after hostOps0 (fun b => m (c, b)) (Proc.devRef .tc main_v0) = _
  after_results
  rfl

/-- The right operand as the region finds it is `pe`. -/
theorem warr_eq (c : Dev nD) : warr m c = m ((c : Thread nD τ).loc main_arg1) := V_main_arg1 m c

/-- Row `2048 b + s` of the flattened array is row (b, s) of the array. -/
theorem flatten_apply (x : Vec Ideal S8x2048x4096 .f32) (b : Fin 8) (s : Fin 2048) (j : Fin 4096) (r : Fin 16384)
    (hr : r.val = 2048 * b.val + s.val) :
    shapeCast S16384x4096 x shapeCasts_S8x2048x4096_S16384x4096 (ix2 r j) = x (ix3 b s j) := by
  refine shapeCast_apply x _ (ix2 r j) (ix3 b s j) ?_
  rw [Shape.rowMajor_val_three, Shape.rowMajor_val_two]
  show (b.val * 2048 + s.val) * 4096 + j.val = r.val * 4096 + j.val
  omega

/-- Entry (b, s, d) of the unflattened array is entry (2048 b + s, d) of the array. -/
theorem unflatten_apply (y : Vec Ideal S16384x128 .f32) (b : Fin 8) (s : Fin 2048) (d : Fin 128) (r : Fin 16384)
    (hr : r.val = 2048 * b.val + s.val) :
    shapeCast S8x2048x128 y shapeCasts_S16384x128_S8x2048x128 (ix3 b s d) = y (ix2 r d) := by
  refine shapeCast_apply y _ (ix3 b s d) (ix2 r d) ?_
  rw [Shape.rowMajor_val_three, Shape.rowMajor_val_two]
  show r.val * 128 + d.val = (b.val * 2048 + s.val) * 128 + d.val
  omega

/-- @main's result after the lines that follow the region: the region's product, unflattened. -/
theorem tail_eq (c : Dev nD) :
    Pipeline.afterTail₀ cfgs (dats m) 0 (V0 m) [hostOps1] c main_v2
      = shapeCast S8x2048x128 (prod (xarr m c) (warr m c)) shapeCasts_S16384x128_S8x2048x128 := by
  unfold Pipeline.afterTail₀
  show StableHlo.after hostOps1 _ (Proc.devRef .tc main_v2) = _
  after_results
  rw [(Pipeline.withArrays_arr spec0 launch0.win.arr_inj c _ _ 2).trans (product m c)]
  rfl

/-- THE RESULT: the contraction of `x`'s last axis with `pe`'s first. -/
theorem result_eq (c : Dev nD) :
    Pipeline.afterTail₀ cfgs (dats m) 0 (V0 m) [hostOps1] c main_v2
      = contraction (m ((c : Thread nD τ).loc main_arg0)) (m ((c : Thread nD τ).loc main_arg1)) := by
  rw [tail_eq]
  funext i
  obtain ⟨b, s, d, rfl⟩ : ∃ (b : Fin 8) (s : Fin 2048) (d : Fin 128), i = ix3 b s d := ⟨i 0, i 1, i 2, eq_ix3 i⟩
  have hr : 2048 * b.val + s.val < 16384 := by have := b.isLt; have := s.isLt; omega
  rw [unflatten_apply _ b s d ⟨_, hr⟩ rfl, prod_apply _ _ _ ⟨_, hr⟩ d rfl rfl]
  unfold contraction
  refine Finset.sum_congr rfl fun j _ => ?_
  rw [xarr_eq, flatten_apply _ b s j ⟨_, hr⟩ rfl, warr_eq]

/-- The run, read: the result at the contraction, the arguments unchanged. -/
theorem run : θ_run defs (onTc (τ := τ) (main (F := Ideal))) ⟨m, fun _ => 0, ρ⟩ fun r => ∀ c : Dev nD,
      r.2.mem ((c.tc : Thread nD τ).loc main_v2) = contraction (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Acc

end
-- ==== Proof.RefSum.lean ====
/-
  The idealized reference computes the contraction.

  Its one operation is a `dot_general` of `x` [8, 2048, 4096] with `pe` [4096, 128] contracting `x`'s last axis
  with `pe`'s first; over the extended reals its entry (b, s, d) is `∑ j, x b s j * pe j d`.
-/
import proofs.«142127_j67954972557888_1_alg».proof.Proof.Gen.ReferenceIdeal.Run
import proofs.«142127_j67954972557888_1_alg».proof.Proof.Gen.ReferenceIdeal.Read
import proofs.«142127_j67954972557888_1_alg».proof.Proof.BlockSum

noncomputable section

open Idealize.ShloMosaic Idealize.ShloMosaic.TcCoe Idealize.SL.Sem

namespace Cert.ReferenceIdeal.RefSum

open Cert.ReferenceIdeal Cert.ReferenceIdeal.Read Idealize.ShloMosaic.ValueIdx Cert.BlockSum

/-- The reference's `dot_general` is the contraction, entry by entry. -/
theorem dot_eq (x : Vec Ideal S8x2048x4096 .f32) (w : Vec Ideal S4096x128 .f32) :
    Host.dotGeneral (F := Ideal) (φ₁ := .f32) (φ₂ := .f32) dot_S8x2048x4096_S4096x128_S8x2048x128_2_0_01_1_n_n none x w = contraction x w := by
  rw [val_main_v0_eq]
  funext i
  rw [val_main_v0_apply]
  unfold contraction
  refine Finset.sum_congr rfl fun k _ => ?_
  have el : lidx_main_v0 i k = ix3 (i 0) (i 1) k := funext fun a => Fin.ext (by
    match a with
    | ⟨0, _⟩ => rfl
    | ⟨1, _⟩ => rfl
    | ⟨2, _⟩ => rfl)
  have er : ridx_main_v0 i k = ix2 k (i 2) := funext fun a => Fin.ext (by
    match a with
    | ⟨0, _⟩ => rfl
    | ⟨1, _⟩ => rfl)
  rw [el, er]
  rfl

end Cert.ReferenceIdeal.RefSum

end
-- ==== Proof.lean ====
/- The proof of `Cert.Claim` (proofs.«142127_j67954972557888_1_alg».proof.Defs).

   The kernel flattens `x` [8, 2048, 4096] to a [16384, 4096] matrix and multiplies it by `pe` [4096, 128] on a grid
   of 8 row tiles by 4 reduction steps of 1024: a scratch accumulator is cleared at a tile's first step, each step
   adds the product of its two blocks (narrowed to bf16, which is the identity over the extended reals), and the last
   step copies the accumulator to the output tile; the result is unflattened to [8, 2048, 128]. The reference is one
   `dot_general` contracting `x`'s last axis with `pe`'s first. Over the extended reals both end at
   `∑ j, x b s j * pe j d` (`Cert.BlockSum.contraction`): the kernel's four partial sums of 1024 products are the
   one sum of 4096 regrouped, which needs only that `+` is a commutative monoid, so the precondition is never opened.

   Modules: BlockSum (the regrouping, and the common function), Pieces (what one grid point leaves, as values),
   Step (one accumulation step entry by entry), Invariant (the accumulator after every point, by induction),
   Result (the pallas_call's result is the matrix product), KernelRun (the reshapes around it; the kernel's run, read),
   RefSum (the reference's `dot_general` is the contraction). The three frames are the generated ones (the
   reference's is its generated run with the result dropped); the ideal pass rewrote nothing, so `preserves` is `True`. -/
import proofs.«142127_j67954972557888_1_alg».proof.Defs
import proofs.«142127_j67954972557888_1_alg».proof.Proof.Gen.Kernel
import proofs.«142127_j67954972557888_1_alg».proof.Proof.Gen.Kernel.Skeleton
import proofs.«142127_j67954972557888_1_alg».proof.Proof.Gen.Kernel.Launch
import proofs.«142127_j67954972557888_1_alg».proof.Proof.Gen.Kernel.Points
import proofs.«142127_j67954972557888_1_alg».proof.Proof.Gen.Kernel.Frame
import proofs.«142127_j67954972557888_1_alg».proof.Proof.Gen.KernelIdeal
import proofs.«142127_j67954972557888_1_alg».proof.Proof.Gen.KernelIdeal.Skeleton
import proofs.«142127_j67954972557888_1_alg».proof.Proof.Gen.KernelIdeal.Launch
import proofs.«142127_j67954972557888_1_alg».proof.Proof.Gen.KernelIdeal.Points
import proofs.«142127_j67954972557888_1_alg».proof.Proof.Gen.KernelIdeal.Frame
import proofs.«142127_j67954972557888_1_alg».proof.Proof.Gen.ReferenceIdeal
import proofs.«142127_j67954972557888_1_alg».proof.Proof.Gen.ReferenceIdeal.Run
import proofs.«142127_j67954972557888_1_alg».proof.Proof.Gen.Pre_finite_inputs
import proofs.«142127_j67954972557888_1_alg».proof.Proof.KernelRun
import proofs.«142127_j67954972557888_1_alg».proof.Proof.RefSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's result ends at the contraction of its arguments (KernelRun) and the
    reference's at its `dot_general` of the same arguments, which is that contraction (RefSum). -/
theorem algebraic : Cert.algebraic_KernelIdeal_ReferenceIdeal := by
  intro m ρ m' ρ' _ hagree
  refine ⟨fun c => Cert.BlockSum.contraction
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefSum.dot_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
